-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S_ : Shape := ⟨0, ![]⟩

class Facts : Prop where
  bcast_S_S10000x300 : S_.BroadcastsInDim S10000x300 (![] : Fin 0 → Fin S10000x300.rank)
  reducesTo_S10000x300_S_d0_1 : S10000x300.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x300 .f32) (main_arg5 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg4
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S10000x300 .f32) (main_arg1 : FVec F S10000x10000 .f32) (main_arg2 : FVec F S300x300 .f32) (main_arg3 : FVec F S300 .f32) (main_arg4 : FVec F S300x300 .f32) (main_arg5 : FVec F S300 .f32) : IVec S_ 1 :=
  let main_v0 : FVec F S10000x300 .f32 := Host.absf main_arg0
  let main_cst : FVec F S_ .f32 := constant S_ .f32 0x7F800000#32
  let main_v1 : FVec F S10000x300 .f32 := broadcastInDim S10000x300 ![] bcast_S_S10000x300 main_cst
  let main_v2 : IVec S10000x300 1 := cmpf .olt main_v0 main_v1
  let main_c : IVec S_ 1 := constantI S_ 1 1#1
  let main_v3 : IVec S_ 1 := (fun x v => Host.reduce IntOp.andi x v reducesTo_S10000x300_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S300x300 .f32 := Host.absf main_arg2
  let main_cst_2 : FVec F S_ .f32 := constant S_ .f32 0x7F800000#32
  let main_v10 : FVec F S300x300 .f32 := broadcastInDim S300x300 ![] bcast_S_S300x300 main_cst_2
  let main_v11 : IVec S300x300 1 := cmpf .olt main_v9 main_v10
  let main_c_3 : IVec S_ 1 := constantI S_ 1 1#1
  let main_v12 : IVec S_ 1 := (fun x v => Host.reduce IntOp.andi x v reducesTo_S300x300_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_v13 main_v16
-- ==== Kernel.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S1x300 : Shape := ⟨2, ![1, 300]⟩
abbrev S1000x300 : Shape := ⟨2, ![1000, 300]⟩
abbrev S400x10000 : Shape := ⟨2, ![400, 10000]⟩
abbrev S400x300 : Shape := ⟨2, ![400, 300]⟩
abbrev S1000x10000 : Shape := ⟨2, ![1000, 10000]⟩

abbrev nBuf : Space → Nat
  | .hbm => 13
  | .vmem => 20
  | .smem => 0
  | _ => 0

abbrev bufTy : (tb : Table) → Fin (tcTables nBuf tb) → BufTy
  | .hbm, ⟨0, _⟩ => ⟨S10000x300, .f32⟩
  | .hbm, ⟨1, _⟩ => ⟨S10000x10000, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x300, .f32⟩
  | .hbm, ⟨7, _⟩ => ⟨S1x300, .f32⟩
  | .hbm, ⟨8, _⟩ => ⟨S300x300, .bf16⟩
  | .hbm, ⟨9, _⟩ => ⟨S10000x300, .bf16⟩
  | .hbm, ⟨10, _⟩ => ⟨S10000x300, .bf16⟩
  | .hbm, ⟨11, _⟩ => ⟨S10000x10000, .bf16⟩
  | .hbm, ⟨12, _⟩ => ⟨S10000x300, .f32⟩
  | .local _ .vmem, ⟨0, _⟩ => ⟨S1000x300, .f32⟩
  | .local _ .vmem, ⟨1, _⟩ => ⟨S1000x300, .f32⟩
  | .local _ .vmem, ⟨2, _⟩ => ⟨S300x300, .f32⟩
  | .local _ .vmem, ⟨3, _⟩ => ⟨S1000x300, .bf16⟩
  | .local _ .vmem, ⟨4, _⟩ => ⟨S1000x300, .bf16⟩
  | .local _ .vmem, ⟨5, _⟩ => ⟨S400x10000, .f32⟩
  | .local _ .vmem, ⟨6, _⟩ => ⟨S400x10000, .f32⟩
  | .local _ .vmem, ⟨7, _⟩ => ⟨S10000x300, .bf16⟩
  | .local _ .vmem, ⟨8, _⟩ => ⟨S1x300, .f32⟩
  | .local _ .vmem, ⟨9, _⟩ => ⟨S300x300, .bf16⟩
  | .local _ .vmem, ⟨10, _⟩ => ⟨S400x300, .bf16⟩
  | .local _ .vmem, ⟨11, _⟩ => ⟨S400x300, .bf16⟩
  | .local _ .vmem, ⟨12, _⟩ => ⟨S400x10000, .bf16⟩
  | .local _ .vmem, ⟨13, _⟩ => ⟨S400x10000, .bf16⟩
  | .local _ .vmem, ⟨14, _⟩ => ⟨S1000x10000, .bf16⟩
  | .local _ .vmem, ⟨15, _⟩ => ⟨S1000x10000, .bf16⟩
  | .local _ .vmem, ⟨16, _⟩ => ⟨S10000x300, .bf16⟩
  | .local _ .vmem, ⟨17, _⟩ => ⟨S1x300, .f32⟩
  | .local _ .vmem, ⟨18, _⟩ => ⟨S1000x300, .f32⟩
  | .local _ .vmem, ⟨19, _⟩ => ⟨S1000x300, .f32⟩
  | _, _ => ⟨S10000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x300 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x300 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S300_S1x300 : S300.ShapeCasts S1x300
  bitsLt_bf16_f32 : FTy.bits .bf16 < FTy.bits .f32
  inb_S1000x300_S1000x300_0_0 : ∀ a, (![0, 0] : Fin 2 → Nat) a + S1000x300.size a ≤ S1000x300.size a
  h_S1000x300 : 0 < S1000x300.numel
  inb_S300x300_S300x300_0_0 : ∀ a, (![0, 0] : Fin 2 → Nat) a + S300x300.size a ≤ S300x300.size a
  h_S300x300 : 0 < S300x300.numel
  packedbf16_S1000x300_S1000x300_0_0 : (Rect.unit (s := S1000x300) ![0, 0] S1000x300.size inb_S1000x300_S1000x300_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x300_S10000x300_0_0 : ∀ a, (![0, 0] : Fin 2 → Nat) a + S10000x300.size a ≤ S10000x300.size a
  h_S10000x300 : 0 < S10000x300.numel
  shapeCasts_S10000x300_S10000x300 : S10000x300.ShapeCasts S10000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S400x300 : S1x300.Broadcasts S400x300
  shapeCasts_S300x300_S300x300 : S300x300.ShapeCasts S300x300
  inb_S400x300_S400x300_0_0 : ∀ a, (![0, 0] : Fin 2 → Nat) a + S400x300.size a ≤ S400x300.size a
  h_S400x300 : 0 < S400x300.numel
  packedbf16_S400x300_S400x300_0_0 : (Rect.unit (s := S400x300) ![0, 0] S400x300.size inb_S400x300_S400x300_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x300_S1000x300 : S1x300.Broadcasts S1000x300
  dot_S1000x300_S300x300_S1000x300_1_0_0_1_n_n_wf : DotDims.WF S1000x300 S300x300 S1000x300 [1] [0] [0] [1] [] []
  dot_S400x10000_S10000x300_S400x300_1_0_0_1_n_n_wf : DotDims.WF S400x10000 S10000x300 S400x300 [1] [0] [0] [1] [] []
  dot_S400x300_S300x300_S400x300_1_0_0_1_n_n_wf : DotDims.WF S400x300 S300x300 S400x300 [1] [0] [0] [1] [] []
  dot_S1000x10000_S10000x300_S1000x300_1_0_0_1_n_n_wf : DotDims.WF S1000x10000 S10000x300 S1000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S10000x300.size a
  hwx0_0 : ∀ i : grid0.Coords, EltTy.bits .f32 = 32 ∨ (Rect.block (s := S10000x300) S1000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x300.size a ≤ S10000x300.size a
  hwx0_2 : ∀ i : grid0.Coords, EltTy.bits .bf16 = 32 ∨ (Rect.block (s := S10000x300) S1000x300.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x300.size a ≤ S10000x300.size a
  hwx1_1 : ∀ i : grid1.Coords, EltTy.bits .bf16 = 32 ∨ (Rect.block (s := S10000x300) S10000x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .bf16 = 32 ∨ (Rect.block (s := S300x300) S300x300.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x300.size a ≤ S10000x300.size a
  hwx1_4 : ∀ i : grid1.Coords, EltTy.bits .bf16 = 32 ∨ (Rect.block (s := S10000x300) S400x300.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x300.size a ≤ S10000x300.size a
  hwx2_1 : ∀ i : grid2.Coords, EltTy.bits .bf16 = 32 ∨ (Rect.block (s := S10000x300) S10000x300.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x300.size a ≤ S10000x300.size a
  hwx2_3 : ∀ i : grid2.Coords, EltTy.bits .f32 = 32 ∨ (Rect.block (s := S10000x300) S1000x300.size (cc2_transform_3 i) (hinb2_3 i)).WholeWords (EltTy.packing .f32)

variable [Facts₀]

def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def dot_S400x10000_S10000x300_S400x300_1_0_0_1_n_n : DotDims S400x10000 S10000x300 S400x300 where
  lhsContracting := [1]
  rhsContracting := [0]
  lhsNonContracting := [0]
  rhsNonContracting := [1]
  lhsBatch := []
  rhsBatch := []
  wf := dot_S400x10000_S10000x300_S400x300_1_0_0_1_n_n_wf
def dot_S400x300_S300x300_S400x300_1_0_0_1_n_n : DotDims S400x300 S300x300 S400x300 where
  lhsContracting := [1]
  rhsContracting := [0]
  lhsNonContracting := [0]
  rhsNonContracting := [1]
  lhsBatch := []
  rhsBatch := []
  wf := dot_S400x300_S300x300_S400x300_1_0_0_1_n_n_wf
def dot_S1000x10000_S10000x300_S1000x300_1_0_0_1_n_n : DotDims S1000x10000 S10000x300 S1000x300 where
  lhsContracting := [1]
  rhsContracting := [0]
  lhsNonContracting := [0]
  rhsNonContracting := [1]
  lhsBatch := []
  rhsBatch := []
  wf := dot_S1000x10000_S10000x300_S1000x300_1_0_0_1_n_n_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S400x300.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S10000x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S1x300 : Shape := ⟨2, ![1, 300]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x300, .f32⟩
  | .hbm, ⟨1, _⟩ => ⟨S10000x10000, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S10000x300, .f32⟩
  | .hbm, ⟨7, _⟩ => ⟨S10000x300, .f32⟩
  | .hbm, ⟨8, _⟩ => ⟨S1x300, .f32⟩
  | .hbm, ⟨9, _⟩ => ⟨S10000x300, .f32⟩
  | .hbm, ⟨10, _⟩ => ⟨S10000x300, .f32⟩
  | .hbm, ⟨11, _⟩ => ⟨S_, .f32⟩
  | .hbm, ⟨12, _⟩ => ⟨S10000x300, .f32⟩
  | .hbm, ⟨13, _⟩ => ⟨S10000x300, .f32⟩
  | .hbm, ⟨14, _⟩ => ⟨S10000x300, .f32⟩
  | .hbm, ⟨15, _⟩ => ⟨S10000x300, .f32⟩
  | .hbm, ⟨16, _⟩ => ⟨S1x300, .f32⟩
  | .hbm, ⟨17, _⟩ => ⟨S10000x300, .f32⟩
  | .hbm, ⟨18, _⟩ => ⟨S10000x300, .f32⟩
  | _, _ => ⟨S10000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  bcast_S_S10000x300 : S_.BroadcastsInDim S10000x300 (![] : Fin 0 → Fin S10000x300.rank)
  dot_S10000x300_S300x300_S10000x300_1_0_0_1_n_n_wf : DotDims.WF S10000x300 S300x300 S10000x300 [1] [0] [0] [1] [] []
  dot_S10000x10000_S10000x300_S10000x300_1_0_0_1_n_n_wf : DotDims.WF S10000x10000 S10000x300 S10000x300 [1] [0] [0] [1] [] []

variable [Facts₀]

def dot_S10000x300_S300x300_S10000x300_1_0_0_1_n_n : DotDims S10000x300 S300x300 S10000x300 where
  lhsContracting := [1]
  rhsContracting := [0]
  lhsNonContracting := [0]
  rhsNonContracting := [1]
  lhsBatch := []
  rhsBatch := []
  wf := dot_S10000x300_S300x300_S10000x300_1_0_0_1_n_n_wf
def dot_S10000x10000_S10000x300_S10000x300_1_0_0_1_n_n : DotDims S10000x10000 S10000x300 S10000x300 where
  lhsContracting := [1]
  rhsContracting := [0]
  lhsNonContracting := [0]
  rhsNonContracting := [1]
  lhsBatch := []
  rhsBatch := []
  wf := dot_S10000x10000_S10000x300_S10000x300_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Spec.lean ====
/-
  The function both programs compute, over the extended reals.

  A two-layer graph convolution: with `S = X · W₁`, the hidden rows are `H = max (A · S + b₁, 0)` and the result is
  `A · (H · W₂) + b₂`; `A` is the dense adjacency, each bias a single row added to every row. Every product here is
  the plain sum over the contracted axis, in the grouping the formula shows; no law of the extended reals beyond
  reading each operation at an index is needed to meet either program.
-/
import Idealize.ShloMosaic.Lib.ValueIdx
import Idealize.ShloMosaic.PureOps.Ideal

noncomputable section

open scoped BigOperators
open Idealize.ShloMosaic Idealize.ShloMosaic.ValueIdx

namespace Cert.GcnSpec

/-- A matrix of extended reals over the index type the arrays have. -/
abbrev Mat (r c : ℕ) : Type := (⟨2, ![r, c]⟩ : Shape).Idx → EReal

/-- The matrix product: entry `(p, o)` is `∑ q, A (p, q) · B (q, o)`. -/
def mm {r k c : ℕ} (A : Mat r k) (B : Mat k c) : Mat r c :=
  fun i => ∑ q : Fin k, A (ix2 (n0 := r) (i 0) q) * B (ix2 (n1 := c) q (i 1))

theorem mm_apply {r k c : ℕ} (A : Mat r k) (B : Mat k c) (p : Fin r) (o : Fin c) :
    mm A B (ix2 p o) = ∑ q : Fin k, A (ix2 p q) * B (ix2 q o) := rfl

/-- A one-row matrix added to every row. -/
def addRow {r c : ℕ} (Z : Mat r c) (b : Mat 1 c) : Mat r c :=
  fun i => Z i + b (ix2 (n0 := 1) 0 (i 1))

theorem addRow_apply {r c : ℕ} (Z : Mat r c) (b : Mat 1 c) (p : Fin r) (o : Fin c) :
    addRow Z b (ix2 p o) = Z (ix2 p o) + b (ix2 0 o) := rfl

/-- Every entry clamped below at the float zero. -/
def relu {r c : ℕ} (Z : Mat r c) : Mat r c :=
  fun i => max (Z i) (Ideal.ofBits .f32 0x00000000#32)

/-- The first layer up to its second weight: `max (A · S + b, 0) · W`. -/
def hidden {n d : ℕ} (A : Mat n n) (S : Mat n d) (b : Mat 1 d) (W : Mat d d) : Mat n d :=
  mm (relu (addRow (mm A S) b)) W

/-- The second layer: `A · T + b`. -/
def outer {n d : ℕ} (A : Mat n n) (T : Mat n d) (b : Mat 1 d) : Mat n d :=
  addRow (mm A T) b

/-- The whole network. -/
def gcn {n d : ℕ} (X : Mat n d) (A : Mat n n) (W₁ : Mat d d) (b₁ : Mat 1 d) (W₂ : Mat d d) (b₂ : Mat 1 d) : Mat n d :=
  outer A (hidden A (mm X W₁) b₁ W₂) b₂

/-- A vector as a one-row matrix. -/
def row {c : ℕ} (v : (⟨1, ![c]⟩ : Shape).Idx → EReal) : Mat 1 c := fun i => v (ix1 (i 1))

end Cert.GcnSpec

end
-- ==== Proof.Region0.lean ====
/-
  The first launch: `S = X · W₁`, a block of 1000 rows at each of the 10 grid points.

  At a point `t` the body loads rows `1000 t … 1000 t + 999` of `X` and the whole of `W₁`, multiplies them into a zero
  accumulator (the contraction runs over all 300 columns at once, so the block's entry `(p, o)` is the plain sum
  `∑ k, X (1000 t + p, k) · W₁ (k, o)`), narrows the format — the identity on the extended reals — and stores the block;
  the pipeline writes it back to rows `1000 t …` of the result array. The ten blocks tile the array, so the array ends
  holding the product, whatever the region found in its buffers at entry.
-/
import proofs.«165406_g10651518894447_week1_w2_746_12_alg».proof.Proof.Gen.KernelIdeal.Frame
import proofs.«165406_g10651518894447_week1_w2_746_12_alg».proof.Proof.LibPlainMatmul
import proofs.«165406_g10651518894447_week1_w2_746_12_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Support

open Cert.KernelIdeal Cert.KernelIdeal.Gen Cert.GcnSpec

/-- The origin of a rank-2 rectangle, as the constant function. -/
theorem hz : (![0, 0] : Fin 2 → Nat) = fun _ => 0 := funext fun a => by fin_cases a <;> rfl

/-! ## The product's dimension numbers: rows of the left operand against columns of the right -/

theorem lhs0_0 (i : S1000x300.Idx) (q : dot_S1000x300_S300x300_S1000x300_1_0_0_1_n_n.contr.Idx) :
    (dot_S1000x300_S300x300_S1000x300_1_0_0_1_n_n.lhsIdx i q 0).val = (i 0).val := by
  unfold DotDims.lhsIdx
  rw [dif_neg (show ¬(0 : Fin S1000x300.rank) ∈ dot_S1000x300_S300x300_S1000x300_1_0_0_1_n_n.lhsBatch by decide), dif_pos (show (0 : Fin S1000x300.rank) ∈ dot_S1000x300_S300x300_S1000x300_1_0_0_1_n_n.lhsNonContracting by decide)]
  rfl
theorem lhs0_1 (i : S1000x300.Idx) (q : dot_S1000x300_S300x300_S1000x300_1_0_0_1_n_n.contr.Idx) :
    (dot_S1000x300_S300x300_S1000x300_1_0_0_1_n_n.lhsIdx i q 1).val = (q ⟨0, by decide⟩).val :=
  dot_S1000x300_S300x300_S1000x300_1_0_0_1_n_n.lhsIdx_val_of_single rfl i q
theorem rhs0_0 (i : S1000x300.Idx) (q : dot_S1000x300_S300x300_S1000x300_1_0_0_1_n_n.contr.Idx) :
    (dot_S1000x300_S300x300_S1000x300_1_0_0_1_n_n.rhsIdx i q 0).val = (q ⟨0, by decide⟩).val :=
  dot_S1000x300_S300x300_S1000x300_1_0_0_1_n_n.rhsIdx_val_of_single rfl i q
theorem rhs0_1 (i : S1000x300.Idx) (q : dot_S1000x300_S300x300_S1000x300_1_0_0_1_n_n.contr.Idx) :
    (dot_S1000x300_S300x300_S1000x300_1_0_0_1_n_n.rhsIdx i q 1).val = (i 1).val := by
  unfold DotDims.rhsIdx
  rw [dif_neg (show ¬(1 : Fin S300x300.rank) ∈ dot_S1000x300_S300x300_S1000x300_1_0_0_1_n_n.rhsBatch by decide), dif_pos (show (1 : Fin S300x300.rank) ∈ dot_S1000x300_S300x300_S1000x300_1_0_0_1_n_n.rhsNonContracting by decide)]
  rfl

/-- The body's stored value at `(p, o)`: the row of the left block against the column of the right one. -/
theorem pay0_apply (x0 : Vec Ideal S1000x300 .f32) (x1 : Vec Ideal S300x300 .f32) (p : Fin 1000) (o : Fin 300) :
    k0_pay1 x0 x1 (ix2 p o) = ∑ k : Fin 300, x0 (ix2 p k) * x1 (ix2 k o) := by
  unfold k0_pay1
  exact Cert.LibPlainMatmul.matmul_zero_apply (φ₁ := .f32) (φ₂ := .f32) dot_S1000x300_S300x300_S1000x300_1_0_0_1_n_n (some .fp32) rfl rfl lhs0_0 lhs0_1 rhs0_0 rhs0_1 x0 x1 p o

/-- The same against whole matrices `X`, `W` of which the blocks are rows `1000 T …` and everything. -/
theorem point0 (x0 : Vec Ideal S1000x300 .f32) (x1 : Vec Ideal S300x300 .f32) (X : Mat 10000 300) (W : Mat 300 300) (T : ℕ)
    (h0 : ∀ (y : S1000x300.Idx) (k : S10000x300.Idx), (k 0).val = 1000 * T + (y 0).val → (k 1).val = (y 1).val → x0 y = X k)
    (h1 : x1 = W) (j : S1000x300.Idx) (i : S10000x300.Idx)
    (hi0 : (i 0).val = 1000 * T + (j 0).val) (hi1 : (i 1).val = (j 1).val) :
    k0_pay1 x0 x1 j = mm X W i := by
  obtain ⟨p, o, rfl⟩ : ∃ (p : Fin 1000) (o : Fin 300), j = ix2 p o := ⟨j 0, j 1, eq_ix2 j⟩
  obtain ⟨p', o', rfl⟩ : ∃ (p' : Fin 10000) (o' : Fin 300), i = ix2 p' o' := ⟨i 0, i 1, eq_ix2 i⟩
  obtain rfl : o' = o := Fin.ext hi1
  rw [pay0_apply, mm_apply, h1]
  exact Finset.sum_congr rfl fun k _ => by rw [h0 (ix2 p k) (ix2 p' k) hi0 rfl]

section Region
variable (V : (c : Dev nD) → (b : Ref sig .tc) → Buf (Elt Ideal) ((c : Thread nD τ).loc b))

/-- The two argument arrays as the region finds them. -/
abbrev arrX (c : Dev nD) : Mat 10000 300 := V c main_arg0
abbrev arrW1 (c : Dev nD) : Mat 300 300 := V c main_arg2

/-- The printed index maps over the grid: the row windows move one block a point, the weight's stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `1000 t …` of `X`. -/
theorem iblk0_0_apply (c : Dev nD) (t : Fin cfg0.N) (y : S1000x300.Idx) (k : S10000x300.Idx)
    (hk0 : (k 0).val = 1000 * t.val + (y 0).val) (hk1 : (k 1).val = (y 1).val) :
    (iblk0 V c 0 t : Vec Ideal S1000x300 .f32) y = arrX V c k := by
  obtain ⟨e0, e1, -⟩ := idx0 t
  unfold iblk0
  rw [View.read_apply]
  show V c main_arg0 _ = V c main_arg0 k
  congr 1
  funext a
  apply Fin.ext
  match a with
  | ⟨0, _⟩ => show win0_0.index t (0 : Fin 2) * 1000 + 1 * (y 0).val = (k 0).val; rw [e0, hk0]; omega
  | ⟨1, _⟩ => show win0_0.index t (1 : Fin 2) * 300 + 1 * (y 1).val = (k 1).val; rw [e1, hk1]; omega

/-- The right window's block is the whole of `W₁` at every point. -/
theorem iblk0_1_eq (c : Dev nD) (t : Fin cfg0.N) : (iblk0 V c 1 t : Vec Ideal S300x300 .f32) = arrW1 V c := by
  obtain ⟨-, -, e0, e1, -⟩ := idx0 t
  funext y
  unfold iblk0
  rw [View.read_apply]
  show V c main_arg2 _ = V c main_arg2 y
  congr 1
  funext a
  apply Fin.ext
  match a with
  | ⟨0, _⟩ => show win0_1.index t (0 : Fin 2) * 300 + 1 * (y 0).val = (y 0).val; rw [e0]; omega
  | ⟨1, _⟩ => show win0_1.index t (1 : Fin 2) * 300 + 1 * (y 1).val = (y 1).val; rw [e1]; omega

/-- What point `t` writes back is block `t` of the product. -/
theorem flushed0 (c : Dev nD) (t : Fin cfg0.N) :
    (dat0 V c).flushed 2 t = ((cfg0.win 2).blk t).view.read (Elt Ideal) (mm (arrX V c) (arrW1 V c)) := by
  obtain ⟨-, -, -, -, e0, e1⟩ := idx0 t
  show (cfg0.win 2).cut (grid0.coords t) ((dat0 V c).after 2 t) = _
  rw [after0_2]
  unfold out0_2
  rw [View.canon_unit_zero hz]
  simp only [View.ld_unit_zero (S := S1000x300) hz, View.ld_unit_zero (S := S300x300) hz]
  funext j
  show k0_pay1 (iblk0 V c 0 t) (iblk0 V c 1 t) j = mm (arrX V c) (arrW1 V c) (((cfg0.win 2).blk t).view.emb j)
  refine point0 (iblk0 V c 0 t) (iblk0 V c 1 t) (arrX V c) (arrW1 V c) t.val
    (fun y k hk0 hk1 => iblk0_0_apply V c t y k hk0 hk1) (iblk0_1_eq V c t) j _ ?_ ?_
  · show win0_2.index t (0 : Fin 2) * 1000 + 1 * (j 0).val = 1000 * t.val + (j 0).val; rw [e0]; omega
  · show win0_2.index t (1 : Fin 2) * 300 + 1 * (j 1).val = (j 1).val; rw [e1]; omega

/-- An index of the result array is in point `t`'s block iff each coordinate is in the block's range. -/
theorem mem_blk0 (t : Fin cfg0.N) (i : S10000x300.Idx) :
    i ∈ ((cfg0.win 2).blk t).view.set ↔ ∀ a : Fin 2, win0_2.index t a * S1000x300.size a ≤ (i a).val ∧ (i a).val < win0_2.index t a * S1000x300.size a + S1000x300.size a := by
  show i ∈ ((View.whole main_v3).slice (win0_2.rect t)).set ↔ _
  rw [View.set_slice_whole, Rect.mem_set_unit]
  exact Iff.rfl

/-- THE ARRAY after the region: the product of the two arrays it found. -/
theorem final0 (c : Dev nD) : (dat0 V c).arrAt 2 cfg0.N = mm (arrX V c) (arrW1 V c) :=
  (dat0 V c).arrAt_eq_of_cover 2 (mm (arrX V c) (arrW1 V c)) (fun t _ => flushed0 V c t) fun i => by
    have h0 : (i 0).val < 10000 := (i 0).isLt
    have h1 : (i 1).val < 300 := (i 1).isLt
    have hN : cfg0.N = 10 := N_0
    refine ⟨⟨(i 0).val / 1000, by omega⟩, flush0_2 _, ?_⟩
    obtain ⟨-, -, -, -, e0, e1⟩ := idx0 ⟨(i 0).val / 1000, by omega⟩
    rw [mem_blk0]
    intro a
    match a with
    | ⟨0, _⟩ => show win0_2.index _ (0 : Fin 2) * 1000 ≤ (i 0).val ∧ (i 0).val < win0_2.index _ (0 : Fin 2) * 1000 + 1000; rw [e0]; show (i 0).val / 1000 * 1000 ≤ (i 0).val ∧ (i 0).val < (i 0).val / 1000 * 1000 + 1000; omega
    | ⟨1, _⟩ => show win0_2.index _ (1 : Fin 2) * 300 ≤ (i 1).val ∧ (i 1).val < win0_2.index _ (1 : Fin 2) * 300 + 300; rw [e1]; omega

end Region

end Cert.KernelIdeal.Support

end
-- ==== Proof.Region1.lean ====
/-
  The second launch: `max (A · S + b₁, 0) · W₂`, a block of 400 rows at each of the 25 grid points, and beside it a
  copy of the adjacency in the narrower format.

  At a point `t` the body loads rows `400 t … 400 t + 399` of `A`, the whole of `S` (the first launch's result), the one
  bias row and the whole of `W₂`. It stores the rows of `A` narrowed — the identity on the extended reals — into the
  copy's block, multiplies them with `S` into a zero accumulator over all 10000 columns at once, adds the bias row to
  every row, clamps below at zero, and multiplies the result with `W₂` into a second zero accumulator over all 300
  columns: the block's entry `(p, o)` is `∑ k, max (∑ q, A (400 t + p, q) · S (q, k) + b₁ (0, k), 0) · W₂ (k, o)`. The 25
  blocks of each output tile its array.
-/
import proofs.«165406_g10651518894447_week1_w2_746_12_alg».proof.Proof.Gen.KernelIdeal.Frame
import proofs.«165406_g10651518894447_week1_w2_746_12_alg».proof.Proof.LibPlainMatmul
import proofs.«165406_g10651518894447_week1_w2_746_12_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.GcnSpec

/-- The origin of a rank-2 rectangle, as the constant function. -/
theorem hz : (![0, 0] : Fin 2 → Nat) = fun _ => 0 := funext fun a => by fin_cases a <;> rfl

/-! ## The two products' dimension numbers: rows of the left operand against columns of the right -/

theorem alhs_0 (i : S400x300.Idx) (q : dot_S400x10000_S10000x300_S400x300_1_0_0_1_n_n.contr.Idx) :
    (dot_S400x10000_S10000x300_S400x300_1_0_0_1_n_n.lhsIdx i q 0).val = (i 0).val := by
  unfold DotDims.lhsIdx
  rw [dif_neg (show ¬(0 : Fin S400x10000.rank) ∈ dot_S400x10000_S10000x300_S400x300_1_0_0_1_n_n.lhsBatch by decide), dif_pos (show (0 : Fin S400x10000.rank) ∈ dot_S400x10000_S10000x300_S400x300_1_0_0_1_n_n.lhsNonContracting by decide)]
  rfl
theorem alhs_1 (i : S400x300.Idx) (q : dot_S400x10000_S10000x300_S400x300_1_0_0_1_n_n.contr.Idx) :
    (dot_S400x10000_S10000x300_S400x300_1_0_0_1_n_n.lhsIdx i q 1).val = (q ⟨0, by decide⟩).val :=
  dot_S400x10000_S10000x300_S400x300_1_0_0_1_n_n.lhsIdx_val_of_single rfl i q
theorem arhs_0 (i : S400x300.Idx) (q : dot_S400x10000_S10000x300_S400x300_1_0_0_1_n_n.contr.Idx) :
    (dot_S400x10000_S10000x300_S400x300_1_0_0_1_n_n.rhsIdx i q 0).val = (q ⟨0, by decide⟩).val :=
  dot_S400x10000_S10000x300_S400x300_1_0_0_1_n_n.rhsIdx_val_of_single rfl i q
theorem arhs_1 (i : S400x300.Idx) (q : dot_S400x10000_S10000x300_S400x300_1_0_0_1_n_n.contr.Idx) :
    (dot_S400x10000_S10000x300_S400x300_1_0_0_1_n_n.rhsIdx i q 1).val = (i 1).val := by
  unfold DotDims.rhsIdx
  rw [dif_neg (show ¬(1 : Fin S10000x300.rank) ∈ dot_S400x10000_S10000x300_S400x300_1_0_0_1_n_n.rhsBatch by decide), dif_pos (show (1 : Fin S10000x300.rank) ∈ dot_S400x10000_S10000x300_S400x300_1_0_0_1_n_n.rhsNonContracting by decide)]
  rfl

theorem blhs_0 (i : S400x300.Idx) (q : dot_S400x300_S300x300_S400x300_1_0_0_1_n_n.contr.Idx) :
    (dot_S400x300_S300x300_S400x300_1_0_0_1_n_n.lhsIdx i q 0).val = (i 0).val := by
  unfold DotDims.lhsIdx
  rw [dif_neg (show ¬(0 : Fin S400x300.rank) ∈ dot_S400x300_S300x300_S400x300_1_0_0_1_n_n.lhsBatch by decide), dif_pos (show (0 : Fin S400x300.rank) ∈ dot_S400x300_S300x300_S400x300_1_0_0_1_n_n.lhsNonContracting by decide)]
  rfl
theorem blhs_1 (i : S400x300.Idx) (q : dot_S400x300_S300x300_S400x300_1_0_0_1_n_n.contr.Idx) :
    (dot_S400x300_S300x300_S400x300_1_0_0_1_n_n.lhsIdx i q 1).val = (q ⟨0, by decide⟩).val :=
  dot_S400x300_S300x300_S400x300_1_0_0_1_n_n.lhsIdx_val_of_single rfl i q
theorem brhs_0 (i : S400x300.Idx) (q : dot_S400x300_S300x300_S400x300_1_0_0_1_n_n.contr.Idx) :
    (dot_S400x300_S300x300_S400x300_1_0_0_1_n_n.rhsIdx i q 0).val = (q ⟨0, by decide⟩).val :=
  dot_S400x300_S300x300_S400x300_1_0_0_1_n_n.rhsIdx_val_of_single rfl i q
theorem brhs_1 (i : S400x300.Idx) (q : dot_S400x300_S300x300_S400x300_1_0_0_1_n_n.contr.Idx) :
    (dot_S400x300_S300x300_S400x300_1_0_0_1_n_n.rhsIdx i q 1).val = (i 1).val := by
  unfold DotDims.rhsIdx
  rw [dif_neg (show ¬(1 : Fin S300x300.rank) ∈ dot_S400x300_S300x300_S400x300_1_0_0_1_n_n.rhsBatch by decide), dif_pos (show (1 : Fin S300x300.rank) ∈ dot_S400x300_S300x300_S400x300_1_0_0_1_n_n.rhsNonContracting by decide)]
  rfl

/-- The bias row spread over the block, read at `(p, k)`: the row's entry `k`. -/
theorem bias_apply (x2 : Vec Ideal S1x300 .f32) (p : Fin 400) (k : Fin 300) :
    broadcastTo S400x300 x2 broadcasts_S1x300_S400x300 (ix2 p k) = x2 (ix2 0 k) :=
  broadcastTo_apply x2 broadcasts_S1x300_S400x300 (ix2 p k) (ix2 0 k) (fun a => match a with
    | ⟨0, _⟩ => by show 0 = if (1 : Nat) = 1 then 0 else p.val; rw [if_pos rfl]
    | ⟨1, _⟩ => by show k.val = if (300 : Nat) = 1 then 0 else k.val; rw [if_neg (by decide)])

/-- The body's value stored into the hidden product's block, at `(p, o)`. -/
theorem pay_apply (x0 : Vec Ideal S400x10000 .f32) (x1 : Vec Ideal S10000x300 .bf16) (x2 : Vec Ideal S1x300 .f32) (x3 : Vec Ideal S300x300 .bf16) (p : Fin 400) (o : Fin 300) :
    k1_pay2 x0 x1 x2 x3 (ix2 p o)
      = ∑ k : Fin 300, max ((∑ q : Fin 10000, x0 (ix2 p q) * x1 (ix2 q k)) + x2 (ix2 0 k)) (Ideal.ofBits .f32 0x00000000#32) * x3 (ix2 k o) := by
  unfold k1_pay2 k1_pay1
  simp only [shapeCast_self]
  refine (Cert.LibPlainMatmul.matmul_zero_apply (φ₁ := .bf16) (φ₂ := .bf16) dot_S400x300_S300x300_S400x300_1_0_0_1_n_n none rfl rfl blhs_0 blhs_1 brhs_0 brhs_1 _ x3 p o).trans ?_
  refine Finset.sum_congr rfl fun k _ => congrArg (· * x3 (ix2 k o)) ?_
  refine congrArg (max · (Ideal.ofBits .f32 0x00000000#32)) (congrArg₂ (· + ·) ?_ (bias_apply x2 p k))
  exact Cert.LibPlainMatmul.matmul_zero_apply (φ₁ := .bf16) (φ₂ := .bf16) dot_S400x10000_S10000x300_S400x300_1_0_0_1_n_n none rfl rfl alhs_0 alhs_1 arhs_0 arhs_1 x0 x1 p k

/-- The same against whole matrices of which the blocks are rows `400 T …` of `A` and all of `S`, `b`, `W`. -/
theorem point (x0 : Vec Ideal S400x10000 .f32) (x1 : Vec Ideal S10000x300 .bf16) (x2 : Vec Ideal S1x300 .f32) (x3 : Vec Ideal S300x300 .bf16)
    (A : Mat 10000 10000) (S : Mat 10000 300) (b : Mat 1 300) (W : Mat 300 300) (T : ℕ)
    (h0 : ∀ (y : S400x10000.Idx) (k : S10000x10000.Idx), (k 0).val = 400 * T + (y 0).val → (k 1).val = (y 1).val → x0 y = A k)
    (h1 : x1 = S) (h2 : x2 = b) (h3 : x3 = W) (j : S400x300.Idx) (i : S10000x300.Idx)
    (hi0 : (i 0).val = 400 * T + (j 0).val) (hi1 : (i 1).val = (j 1).val) :
    k1_pay2 x0 x1 x2 x3 j = hidden A S b W i := by
  obtain ⟨p, o, rfl⟩ : ∃ (p : Fin 400) (o : Fin 300), j = ix2 p o := ⟨j 0, j 1, eq_ix2 j⟩
  obtain ⟨p', o', rfl⟩ : ∃ (p' : Fin 10000) (o' : Fin 300), i = ix2 p' o' := ⟨i 0, i 1, eq_ix2 i⟩
  obtain rfl : o' = o := Fin.ext hi1
  rw [pay_apply, h1, h2, h3]
  show _ = mm (relu (addRow (mm A S) b)) W (ix2 p' o')
  rw [mm_apply]
  refine Finset.sum_congr rfl fun k _ => congrArg (· * W (ix2 k o')) ?_
  show _ = max (mm A S (ix2 p' k) + b (ix2 0 k)) (Ideal.ofBits .f32 0x00000000#32)
  rw [mm_apply]
  exact congrArg (fun z => max (z + b (ix2 0 k)) (Ideal.ofBits .f32 0x00000000#32))
    (Finset.sum_congr rfl fun q _ => by rw [h0 (ix2 p q) (ix2 p' q) hi0 rfl])

section Region
variable (V : (c : Dev nD) → (b : Ref sig .tc) → Buf (Elt Ideal) ((c : Thread nD τ).loc b))

/-- The four arrays the launch reads, as the region finds them. -/
abbrev arrA (c : Dev nD) : Mat 10000 10000 := V c main_arg1
abbrev arrS (c : Dev nD) : Mat 10000 300 := V c main_v3
abbrev arrB (c : Dev nD) : Mat 1 300 := V c main_v0
abbrev arrW (c : Dev nD) : Mat 300 300 := V c main_v2

/-- The printed index maps over the grid: the three row windows move one block a point, the others stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The adjacency window's block at point `t` is rows `400 t …` of `A`. -/
theorem iblk_0_apply (c : Dev nD) (t : Fin cfg1.N) (y : S400x10000.Idx) (k : S10000x10000.Idx)
    (hk0 : (k 0).val = 400 * t.val + (y 0).val) (hk1 : (k 1).val = (y 1).val) :
    (iblk1 V c 0 t : Vec Ideal S400x10000 .f32) y = arrA V c k := by
  obtain ⟨e0, e1, -⟩ := idx t
  unfold iblk1
  rw [View.read_apply]
  show V c main_arg1 _ = V c main_arg1 k
  congr 1
  funext a
  apply Fin.ext
  match a with
  | ⟨0, _⟩ => show win1_0.index t (0 : Fin 2) * 400 + 1 * (y 0).val = (k 0).val; rw [e0, hk0]; omega
  | ⟨1, _⟩ => show win1_0.index t (1 : Fin 2) * 10000 + 1 * (y 1).val = (k 1).val; rw [e1, hk1]; omega

/-- The second window's block is the whole of `S` at every point. -/
theorem iblk_1_eq (c : Dev nD) (t : Fin cfg1.N) : (iblk1 V c 1 t : Vec Ideal S10000x300 .bf16) = arrS V c := by
  obtain ⟨-, -, e0, e1, -⟩ := idx t
  funext y
  unfold iblk1
  rw [View.read_apply]
  show V c main_v3 _ = V c main_v3 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 300 + 1 * (y 1).val = (y 1).val; rw [e1]; omega

/-- The third window's block is the whole bias row at every point. -/
theorem iblk_2_eq (c : Dev nD) (t : Fin cfg1.N) : (iblk1 V c 2 t : Vec Ideal S1x300 .f32) = arrB V c := by
  obtain ⟨-, -, -, -, e0, e1, -⟩ := idx t
  funext y
  unfold iblk1
  rw [View.read_apply]
  show V c main_v0 _ = V c main_v0 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 300 + 1 * (y 1).val = (y 1).val; rw [e1]; omega

/-- The fourth window's block is the whole of `W₂` at every point. -/
theorem iblk_3_eq (c : Dev nD) (t : Fin cfg1.N) : (iblk1 V c 3 t : Vec Ideal S300x300 .bf16) = arrW V c := by
  obtain ⟨-, -, -, -, -, -, e0, e1, -⟩ := idx t
  funext y
  unfold iblk1
  rw [View.read_apply]
  show V c main_v2 _ = V c main_v2 y
  congr 1
  funext a
  apply Fin.ext
  match a with
  | ⟨0, _⟩ => show win1_3.index t (0 : Fin 2) * 300 + 1 * (y 0).val = (y 0).val; rw [e0]; omega
  | ⟨1, _⟩ => show win1_3.index t (1 : Fin 2) * 300 + 1 * (y 1).val = (y 1).val; rw [e1]; omega

/-! ## The hidden product -/

/-- What point `t` writes back to the hidden product's array is block `t` of `max (A · S + b, 0) · W`. -/
theorem flushed_hidden (c : Dev nD) (t : Fin cfg1.N) :
    (dat1 V c).flushed 4 t = ((cfg1.win 4).blk t).view.read (Elt Ideal) (hidden (arrA V c) (arrS V c) (arrB V c) (arrW V c)) := by
  obtain ⟨-, -, -, -, -, -, -, -, e0, e1, -⟩ := idx t
  show (cfg1.win 4).cut (grid1.coords t) ((dat1 V c).after 4 t) = _
  rw [after1_4]
  unfold out1_4
  rw [View.canon_unit_zero hz]
  simp only [View.ld_unit_zero (S := S400x10000) hz, View.ld_unit_zero (S := S10000x300) hz, View.ld_unit_zero (S := S1x300) hz, View.ld_unit_zero (S := S300x300) hz]
  funext j
  show k1_pay2 (iblk1 V c 0 t) (iblk1 V c 1 t) (iblk1 V c 2 t) (iblk1 V c 3 t) j = hidden (arrA V c) (arrS V c) (arrB V c) (arrW V c) (((cfg1.win 4).blk t).view.emb j)
  refine point (iblk1 V c 0 t) (iblk1 V c 1 t) (iblk1 V c 2 t) (iblk1 V c 3 t) (arrA V c) (arrS V c) (arrB V c) (arrW V c) t.val
    (fun y k hk0 hk1 => iblk_0_apply V c t y k hk0 hk1) (iblk_1_eq V c t) (iblk_2_eq V c t) (iblk_3_eq V c t) j _ ?_ ?_
  · show win1_4.index t (0 : Fin 2) * 400 + 1 * (j 0).val = 400 * t.val + (j 0).val; rw [e0]; omega
  · show win1_4.index t (1 : Fin 2) * 300 + 1 * (j 1).val = (j 1).val; rw [e1]; omega

/-- An index of the hidden product's array is in point `t`'s block iff each coordinate is in the block's range. -/
theorem mem_blk_hidden (t : Fin cfg1.N) (i : S10000x300.Idx) :
    i ∈ ((cfg1.win 4).blk t).view.set ↔ ∀ a : Fin 2, win1_4.index t a * S400x300.size a ≤ (i a).val ∧ (i a).val < win1_4.index t a * S400x300.size a + S400x300.size a := by
  show i ∈ ((View.whole main_v4_0).slice (win1_4.rect t)).set ↔ _
  rw [View.set_slice_whole, Rect.mem_set_unit]
  exact Iff.rfl

/-- THE HIDDEN PRODUCT'S ARRAY after the region. -/
theorem final_hidden (c : Dev nD) : (dat1 V c).arrAt 4 cfg1.N = hidden (arrA V c) (arrS V c) (arrB V c) (arrW V c) :=
  (dat1 V c).arrAt_eq_of_cover 4 (hidden (arrA V c) (arrS V c) (arrB V c) (arrW V c)) (fun t _ => flushed_hidden V c t) fun i => by
    have h0 : (i 0).val < 10000 := (i 0).isLt
    have h1 : (i 1).val < 300 := (i 1).isLt
    have hN : cfg1.N = 25 := N_1
    refine ⟨⟨(i 0).val / 400, by omega⟩, flush1_4 _, ?_⟩
    obtain ⟨-, -, -, -, -, -, -, -, e0, e1, -⟩ := idx ⟨(i 0).val / 400, by omega⟩
    rw [mem_blk_hidden]
    intro a
    match a with
    | ⟨0, _⟩ => show win1_4.index _ (0 : Fin 2) * 400 ≤ (i 0).val ∧ (i 0).val < win1_4.index _ (0 : Fin 2) * 400 + 400; rw [e0]; show (i 0).val / 400 * 400 ≤ (i 0).val ∧ (i 0).val < (i 0).val / 400 * 400 + 400; omega
    | ⟨1, _⟩ => show win1_4.index _ (1 : Fin 2) * 300 ≤ (i 1).val ∧ (i 1).val < win1_4.index _ (1 : Fin 2) * 300 + 300; rw [e1]; omega

/-! ## The copy of the adjacency -/

/-- What point `t` writes back to the copy is block `t` of `A` itself. -/
theorem flushed_copy (c : Dev nD) (t : Fin cfg1.N) :
    (dat1 V c).flushed 5 t = ((cfg1.win 5).blk t).view.read (Elt Ideal) (arrA V c) := by
  obtain ⟨-, -, -, -, -, -, -, -, -, -, e0, e1⟩ := idx t
  show (cfg1.win 5).cut (grid1.coords t) ((dat1 V c).after 5 t) = _
  rw [after1_5]
  unfold out1_5
  rw [View.canon_unit_zero hz]
  simp only [View.ld_unit_zero (S := S400x10000) hz]
  funext j
  show (iblk1 V c 0 t : Vec Ideal S400x10000 .f32) j = arrA V c (((cfg1.win 5).blk t).view.emb j)
  refine iblk_0_apply V c t j _ ?_ ?_
  · show win1_5.index t (0 : Fin 2) * 400 + 1 * (j 0).val = 400 * t.val + (j 0).val; rw [e0]; omega
  · show win1_5.index t (1 : Fin 2) * 10000 + 1 * (j 1).val = (j 1).val; rw [e1]; omega

/-- An index of the copy's array is in point `t`'s block iff each coordinate is in the block's range. -/
theorem mem_blk_copy (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v4_1).slice (win1_5.rect t)).set ↔ _
  rw [View.set_slice_whole, Rect.mem_set_unit]
  exact Iff.rfl

/-- THE COPY'S ARRAY after the region: the adjacency the region found. -/
theorem final_copy (c : Dev nD) : (dat1 V c).arrAt 5 cfg1.N = arrA V c :=
  (dat1 V c).arrAt_eq_of_cover 5 (arrA V c) (fun t _ => flushed_copy V c t) fun i => by
    have h0 : (i 0).val < 10000 := (i 0).isLt
    have h1 : (i 1).val < 10000 := (i 1).isLt
    have hN : cfg1.N = 25 := N_1
    refine ⟨⟨(i 0).val / 400, by omega⟩, flush1_5 _, ?_⟩
    obtain ⟨-, -, -, -, -, -, -, -, -, -, e0, e1⟩ := idx ⟨(i 0).val / 400, by omega⟩
    rw [mem_blk_copy]
    intro a
    match a with
    | ⟨0, _⟩ => show win1_5.index _ (0 : Fin 2) * 400 ≤ (i 0).val ∧ (i 0).val < win1_5.index _ (0 : Fin 2) * 400 + 400; rw [e0]; show (i 0).val / 400 * 400 ≤ (i 0).val ∧ (i 0).val < (i 0).val / 400 * 400 + 400; omega
    | ⟨1, _⟩ => show win1_5.index _ (1 : Fin 2) * 10000 ≤ (i 1).val ∧ (i 1).val < win1_5.index _ (1 : Fin 2) * 10000 + 10000; rw [e1]; omega

end Region

end Cert.KernelIdeal.Layer1

end
-- ==== Proof.Region2.lean ====
/-
  The third launch: `A · T + b₂`, a block of 1000 rows at each of the 10 grid points.

  At a point `t` the body loads rows `1000 t … 1000 t + 999` of the adjacency (the narrowed copy the second launch left),
  the whole of `T` and the one bias row, multiplies into a zero accumulator over all 10000 columns at once and adds the
  bias row to every row: the block's entry `(p, o)` is `∑ k, A (1000 t + p, k) · T (k, o) + b₂ (0, o)`. The casts to
  the same shape are identities. The ten blocks tile the result array.
-/
import proofs.«165406_g10651518894447_week1_w2_746_12_alg».proof.Proof.Gen.KernelIdeal.Frame
import proofs.«165406_g10651518894447_week1_w2_746_12_alg».proof.Proof.LibPlainMatmul
import proofs.«165406_g10651518894447_week1_w2_746_12_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.GcnSpec

/-- The origin of a rank-2 rectangle, as the constant function. -/
theorem hz : (![0, 0] : Fin 2 → Nat) = fun _ => 0 := funext fun a => by fin_cases a <;> rfl

/-! ## The product's dimension numbers: rows of the left operand against columns of the right -/

theorem lhs_0 (i : S1000x300.Idx) (q : dot_S1000x10000_S10000x300_S1000x300_1_0_0_1_n_n.contr.Idx) :
    (dot_S1000x10000_S10000x300_S1000x300_1_0_0_1_n_n.lhsIdx i q 0).val = (i 0).val := by
  unfold DotDims.lhsIdx
  rw [dif_neg (show ¬(0 : Fin S1000x10000.rank) ∈ dot_S1000x10000_S10000x300_S1000x300_1_0_0_1_n_n.lhsBatch by decide), dif_pos (show (0 : Fin S1000x10000.rank) ∈ dot_S1000x10000_S10000x300_S1000x300_1_0_0_1_n_n.lhsNonContracting by decide)]
  rfl
theorem lhs_1 (i : S1000x300.Idx) (q : dot_S1000x10000_S10000x300_S1000x300_1_0_0_1_n_n.contr.Idx) :
    (dot_S1000x10000_S10000x300_S1000x300_1_0_0_1_n_n.lhsIdx i q 1).val = (q ⟨0, by decide⟩).val :=
  dot_S1000x10000_S10000x300_S1000x300_1_0_0_1_n_n.lhsIdx_val_of_single rfl i q
theorem rhs_0 (i : S1000x300.Idx) (q : dot_S1000x10000_S10000x300_S1000x300_1_0_0_1_n_n.contr.Idx) :
    (dot_S1000x10000_S10000x300_S1000x300_1_0_0_1_n_n.rhsIdx i q 0).val = (q ⟨0, by decide⟩).val :=
  dot_S1000x10000_S10000x300_S1000x300_1_0_0_1_n_n.rhsIdx_val_of_single rfl i q
theorem rhs_1 (i : S1000x300.Idx) (q : dot_S1000x10000_S10000x300_S1000x300_1_0_0_1_n_n.contr.Idx) :
    (dot_S1000x10000_S10000x300_S1000x300_1_0_0_1_n_n.rhsIdx i q 1).val = (i 1).val := by
  unfold DotDims.rhsIdx
  rw [dif_neg (show ¬(1 : Fin S10000x300.rank) ∈ dot_S1000x10000_S10000x300_S1000x300_1_0_0_1_n_n.rhsBatch by decide), dif_pos (show (1 : Fin S10000x300.rank) ∈ dot_S1000x10000_S10000x300_S1000x300_1_0_0_1_n_n.rhsNonContracting by decide)]
  rfl

/-- The bias row spread over the block, read at `(p, o)`: the row's entry `o`. -/
theorem bias_apply (x2 : Vec Ideal S1x300 .f32) (p : Fin 1000) (o : Fin 300) :
    broadcastTo S1000x300 x2 broadcasts_S1x300_S1000x300 (ix2 p o) = x2 (ix2 0 o) :=
  broadcastTo_apply x2 broadcasts_S1x300_S1000x300 (ix2 p o) (ix2 0 o) (fun a => match a with
    | ⟨0, _⟩ => by show 0 = if (1 : Nat) = 1 then 0 else p.val; rw [if_pos rfl]
    | ⟨1, _⟩ => by show o.val = if (300 : Nat) = 1 then 0 else o.val; rw [if_neg (by decide)])

/-- The body's stored value at `(p, o)`. -/
theorem pay_apply (x0 : Vec Ideal S1000x10000 .bf16) (x1 : Vec Ideal S10000x300 .bf16) (x2 : Vec Ideal S1x300 .f32) (p : Fin 1000) (o : Fin 300) :
    k2_pay1 x0 x1 x2 (ix2 p o) = (∑ k : Fin 10000, x0 (ix2 p k) * x1 (ix2 k o)) + x2 (ix2 0 o) := by
  unfold k2_pay1
  simp only [shapeCast_self]
  refine congrArg₂ (· + ·) ?_ (bias_apply x2 p o)
  exact Cert.LibPlainMatmul.matmul_zero_apply (φ₁ := .bf16) (φ₂ := .bf16) dot_S1000x10000_S10000x300_S1000x300_1_0_0_1_n_n none rfl rfl lhs_0 lhs_1 rhs_0 rhs_1 x0 x1 p o

/-- The same against whole matrices of which the blocks are rows `1000 T …`, everything, and everything. -/
theorem point (x0 : Vec Ideal S1000x10000 .bf16) (x1 : Vec Ideal S10000x300 .bf16) (x2 : Vec Ideal S1x300 .f32)
    (A : Mat 10000 10000) (Tm : Mat 10000 300) (b : Mat 1 300) (T : ℕ)
    (h0 : ∀ (y : S1000x10000.Idx) (k : S10000x10000.Idx), (k 0).val = 1000 * T + (y 0).val → (k 1).val = (y 1).val → x0 y = A k)
    (h1 : x1 = Tm) (h2 : x2 = b) (j : S1000x300.Idx) (i : S10000x300.Idx)
    (hi0 : (i 0).val = 1000 * T + (j 0).val) (hi1 : (i 1).val = (j 1).val) :
    k2_pay1 x0 x1 x2 j = outer A Tm b i := by
  obtain ⟨p, o, rfl⟩ : ∃ (p : Fin 1000) (o : Fin 300), j = ix2 p o := ⟨j 0, j 1, eq_ix2 j⟩
  obtain ⟨p', o', rfl⟩ : ∃ (p' : Fin 10000) (o' : Fin 300), i = ix2 p' o' := ⟨i 0, i 1, eq_ix2 i⟩
  obtain rfl : o' = o := Fin.ext hi1
  rw [pay_apply, h1, h2]
  show _ = mm A Tm (ix2 p' o') + b (ix2 0 o')
  rw [mm_apply]
  exact congrArg (· + b (ix2 0 o')) (Finset.sum_congr rfl fun k _ => by rw [h0 (ix2 p k) (ix2 p' k) hi0 rfl])

section Region
variable (V : (c : Dev nD) → (b : Ref sig .tc) → Buf (Elt Ideal) ((c : Thread nD τ).loc b))

/-- The three arrays the launch reads, as the region finds them. -/
abbrev arrA (c : Dev nD) : Mat 10000 10000 := V c main_v4_1
abbrev arrT (c : Dev nD) : Mat 10000 300 := V c main_v4_0
abbrev arrB (c : Dev nD) : Mat 1 300 := V c main_v1

/-- The printed index maps over the grid: the row windows move one block a point, the others stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left window's block at point `t` is rows `1000 t …` of `A`. -/
theorem iblk_0_apply (c : Dev nD) (t : Fin cfg2.N) (y : S1000x10000.Idx) (k : S10000x10000.Idx)
    (hk0 : (k 0).val = 1000 * t.val + (y 0).val) (hk1 : (k 1).val = (y 1).val) :
    (iblk2 V c 0 t : Vec Ideal S1000x10000 .bf16) y = arrA V c k := by
  obtain ⟨e0, e1, -⟩ := idx t
  unfold iblk2
  rw [View.read_apply]
  show V c main_v4_1 _ = V c main_v4_1 k
  congr 1
  funext a
  apply Fin.ext
  match a with
  | ⟨0, _⟩ => show win2_0.index t (0 : Fin 2) * 1000 + 1 * (y 0).val = (k 0).val; rw [e0, hk0]; omega
  | ⟨1, _⟩ => show win2_0.index t (1 : Fin 2) * 10000 + 1 * (y 1).val = (k 1).val; rw [e1, hk1]; omega

/-- The second window's block is the whole of `T` at every point. -/
theorem iblk_1_eq (c : Dev nD) (t : Fin cfg2.N) : (iblk2 V c 1 t : Vec Ideal S10000x300 .bf16) = arrT V c := by
  obtain ⟨-, -, e0, e1, -⟩ := idx t
  funext y
  unfold iblk2
  rw [View.read_apply]
  show V c main_v4_0 _ = V c main_v4_0 y
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 300 + 1 * (y 1).val = (y 1).val; rw [e1]; omega

/-- The third window's block is the whole bias row at every point. -/
theorem iblk_2_eq (c : Dev nD) (t : Fin cfg2.N) : (iblk2 V c 2 t : Vec Ideal S1x300 .f32) = arrB V c := by
  obtain ⟨-, -, -, -, e0, e1, -⟩ := idx t
  funext y
  unfold iblk2
  rw [View.read_apply]
  show V c main_v1 _ = V c main_v1 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 300 + 1 * (y 1).val = (y 1).val; rw [e1]; omega

/-- What point `t` writes back is block `t` of `A · T + b`. -/
theorem flushed (c : Dev nD) (t : Fin cfg2.N) :
    (dat2 V c).flushed 3 t = ((cfg2.win 3).blk t).view.read (Elt Ideal) (outer (arrA V c) (arrT V c) (arrB V c)) := by
  obtain ⟨-, -, -, -, -, -, e0, e1⟩ := idx t
  show (cfg2.win 3).cut (grid2.coords t) ((dat2 V c).after 3 t) = _
  rw [after2_3]
  unfold out2_3
  rw [View.canon_unit_zero hz]
  simp only [View.ld_unit_zero (S := S1000x10000) hz, View.ld_unit_zero (S := S10000x300) hz, View.ld_unit_zero (S := S1x300) hz]
  funext j
  show k2_pay1 (iblk2 V c 0 t) (iblk2 V c 1 t) (iblk2 V c 2 t) j = outer (arrA V c) (arrT V c) (arrB V c) (((cfg2.win 3).blk t).view.emb j)
  refine point (iblk2 V c 0 t) (iblk2 V c 1 t) (iblk2 V c 2 t) (arrA V c) (arrT V c) (arrB V c) t.val
    (fun y k hk0 hk1 => iblk_0_apply V c t y k hk0 hk1) (iblk_1_eq V c t) (iblk_2_eq V c t) j _ ?_ ?_
  · show win2_3.index t (0 : Fin 2) * 1000 + 1 * (j 0).val = 1000 * t.val + (j 0).val; rw [e0]; omega
  · show win2_3.index t (1 : Fin 2) * 300 + 1 * (j 1).val = (j 1).val; rw [e1]; omega

/-- An index of the result array is in point `t`'s block iff each coordinate is in the block's range. -/
theorem mem_blk (t : Fin cfg2.N) (i : S10000x300.Idx) :
    i ∈ ((cfg2.win 3).blk t).view.set ↔ ∀ a : Fin 2, win2_3.index t a * S1000x300.size a ≤ (i a).val ∧ (i a).val < win2_3.index t a * S1000x300.size a + S1000x300.size a := by
  show i ∈ ((View.whole main_v5).slice (win2_3.rect t)).set ↔ _
  rw [View.set_slice_whole, Rect.mem_set_unit]
  exact Iff.rfl

/-- THE ARRAY after the region: `A · T + b` of the three arrays it found. -/
theorem final (c : Dev nD) : (dat2 V c).arrAt 3 cfg2.N = outer (arrA V c) (arrT V c) (arrB V c) :=
  (dat2 V c).arrAt_eq_of_cover 3 (outer (arrA V c) (arrT V c) (arrB V c)) (fun t _ => flushed V c t) fun i => by
    have h0 : (i 0).val < 10000 := (i 0).isLt
    have h1 : (i 1).val < 300 := (i 1).isLt
    have hN : cfg2.N = 10 := N_2
    refine ⟨⟨(i 0).val / 1000, by omega⟩, flush2_3 _, ?_⟩
    obtain ⟨-, -, -, -, -, -, e0, e1⟩ := idx ⟨(i 0).val / 1000, by omega⟩
    rw [mem_blk]
    intro a
    match a with
    | ⟨0, _⟩ => show win2_3.index _ (0 : Fin 2) * 1000 ≤ (i 0).val ∧ (i 0).val < win2_3.index _ (0 : Fin 2) * 1000 + 1000; rw [e0]; show (i 0).val / 1000 * 1000 ≤ (i 0).val ∧ (i 0).val < (i 0).val / 1000 * 1000 + 1000; omega
    | ⟨1, _⟩ => show win2_3.index _ (1 : Fin 2) * 300 ≤ (i 1).val ∧ (i 1).val < win2_3.index _ (1 : Fin 2) * 300 + 300; rw [e1]; omega

end Region

end Cert.KernelIdeal.Layer2

end
-- ==== Proof.KernelValue.lean ====
/-
  The kernel's result array as one function of the argument arrays.

  The program is a short stretch of host operations — each bias reshaped to a single row, the second weight
  narrowed, which on the extended reals changes nothing — followed by the three launches. Each launch leaves in
  its output arrays a function of the arrays it found at entry (the three modules before this one), and every
  other buffer as it was. Reading the buffers' contents boundary by boundary: the first launch finds `X`, `W₁` as
  launched and leaves `X · W₁`; the second finds that product, the adjacency as launched, the reshaped first bias and
  `W₂`, and leaves the hidden product and a copy of the adjacency; the third finds those two and the reshaped second
  bias and leaves the network's value in the result array.
-/
import proofs.«165406_g10651518894447_week1_w2_746_12_alg».proof.Proof.KernelRun
import proofs.«165406_g10651518894447_week1_w2_746_12_alg».proof.Proof.Region0
import proofs.«165406_g10651518894447_week1_w2_746_12_alg».proof.Proof.Region1
import proofs.«165406_g10651518894447_week1_w2_746_12_alg».proof.Proof.Region2
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.StableHlo

namespace Cert.KernelIdeal.Whole

open Cert.KernelIdeal Cert.KernelIdeal.Gen Cert.GcnSpec

variable (m : (ℓ : Loc nD τ sig) → Buf (Elt Ideal) ℓ) (ρ : Dev nD → PrngReg)

/-- The six argument arrays as launched. -/
abbrev argX (c : Dev nD) : Mat 10000 300 := m ((c : Thread nD τ).loc main_arg0)
abbrev argA (c : Dev nD) : Mat 10000 10000 := m ((c : Thread nD τ).loc main_arg1)
abbrev argW1 (c : Dev nD) : Mat 300 300 := m ((c : Thread nD τ).loc main_arg2)
abbrev argB1 (c : Dev nD) : (⟨1, ![300]⟩ : Shape).Idx → EReal := m ((c : Thread nD τ).loc main_arg3)
abbrev argW2 (c : Dev nD) : Mat 300 300 := m ((c : Thread nD τ).loc main_arg4)
abbrev argB2 (c : Dev nD) : (⟨1, ![300]⟩ : Shape).Idx → EReal := m ((c : Thread nD τ).loc main_arg5)

/-- A vector reshaped to one row is the vector read along that row. -/
theorem reshape_row (v : (⟨1, ![300]⟩ : Shape).Idx → EReal) :
    (shapeCast S1x300 v shapeCasts_S300_S1x300 : Mat 1 300) = row v :=
  funext fun j => (shapeCast_addUnit_apply ![300] v shapeCasts_S300_S1x300 j).trans
    (congrArg v (funext fun a => match a with | ⟨0, _⟩ => rfl))

/-! ## At the first launch's entry: after the host stretch -/

theorem entry_x (c : Dev nD) : (V1 m ρ c main_arg0 : Mat 10000 300) = argX m c := by
  show StableHlo.after hostOps0 (W0 m ρ c) (Proc.devRef .tc main_arg0) = _
  after_results <;> rfl
theorem entry_a (c : Dev nD) : (V1 m ρ c main_arg1 : Mat 10000 10000) = argA m c := by
  show StableHlo.after hostOps0 (W0 m ρ c) (Proc.devRef .tc main_arg1) = _
  after_results <;> rfl
theorem entry_w1 (c : Dev nD) : (V1 m ρ c main_arg2 : Mat 300 300) = argW1 m c := by
  show StableHlo.after hostOps0 (W0 m ρ c) (Proc.devRef .tc main_arg2) = _
  after_results <;> rfl
theorem entry_w2 (c : Dev nD) : (V1 m ρ c main_v2 : Mat 300 300) = argW2 m c := by
  show StableHlo.after hostOps0 (W0 m ρ c) (Proc.devRef .tc main_v2) = _
  after_results <;> rfl
theorem entry_b1 (c : Dev nD) : (V1 m ρ c main_v0 : Mat 1 300) = row (argB1 m c) := by
  show StableHlo.after hostOps0 (W0 m ρ c) (Proc.devRef .tc main_v0) = _
  after_results
  exact reshape_row (argB1 m c)
theorem entry_b2 (c : Dev nD) : (V1 m ρ c main_v1 : Mat 1 300) = row (argB2 m c) := by
  show StableHlo.after hostOps0 (W0 m ρ c) (Proc.devRef .tc main_v1) = _
  after_results
  exact reshape_row (argB2 m c)

/-! ## At the second launch's entry: after the first launch -/

theorem mid_support (c : Dev nD) : (V2 m ρ c main_v3 : Mat 10000 300) = mm (argX m c) (argW1 m c) :=
  ((W2_arr m ρ c 2).trans (Support.final0 (V1 m ρ) c)).trans (congrArg₂ mm (entry_x m ρ c) (entry_w1 m ρ c))
theorem mid_a (c : Dev nD) : (V2 m ρ c main_arg1 : Mat 10000 10000) = argA m c :=
  (W2_of_ne m ρ c main_arg1 (by decide)).trans (entry_a m ρ c)
theorem mid_b1 (c : Dev nD) : (V2 m ρ c main_v0 : Mat 1 300) = row (argB1 m c) :=
  (W2_of_ne m ρ c main_v0 (by decide)).trans (entry_b1 m ρ c)
theorem mid_w2 (c : Dev nD) : (V2 m ρ c main_v2 : Mat 300 300) = argW2 m c :=
  (W2_of_ne m ρ c main_v2 (by decide)).trans (entry_w2 m ρ c)
theorem mid_b2 (c : Dev nD) : (V2 m ρ c main_v1 : Mat 1 300) = row (argB2 m c) :=
  (W2_of_ne m ρ c main_v1 (by decide)).trans (entry_b2 m ρ c)

/-! ## At the third launch's entry: after the second launch -/

theorem late_hidden (c : Dev nD) : (V3 m ρ c main_v4_0 : Mat 10000 300)
    = hidden (argA m c) (mm (argX m c) (argW1 m c)) (row (argB1 m c)) (argW2 m c) :=
  ((W3_arr m ρ c 4).trans (Layer1.final_hidden (V2 m ρ) c)).trans (by
    show hidden (V2 m ρ c main_arg1 : Mat 10000 10000) (V2 m ρ c main_v3 : Mat 10000 300) (V2 m ρ c main_v0 : Mat 1 300) (V2 m ρ c main_v2 : Mat 300 300) = _
    rw [mid_a m ρ c, mid_support m ρ c, mid_b1 m ρ c, mid_w2 m ρ c])
theorem late_a (c : Dev nD) : (V3 m ρ c main_v4_1 : Mat 10000 10000) = argA m c :=
  ((W3_arr m ρ c 5).trans (Layer1.final_copy (V2 m ρ) c)).trans (mid_a m ρ c)
theorem late_b2 (c : Dev nD) : (V3 m ρ c main_v1 : Mat 1 300) = row (argB2 m c) :=
  (W3_of_ne m ρ c main_v1 (by decide)).trans (mid_b2 m ρ c)

/-! ## After the third launch -/

/-- THE RESULT ARRAY at the last boundary: the network's value of the arguments as launched. -/
theorem result (c : Dev nD) : (W4 m ρ c (Proc.devRef .tc main_v5) : Mat 10000 300)
    = gcn (argX m c) (argA m c) (argW1 m c) (row (argB1 m c)) (argW2 m c) (row (argB2 m c)) :=
  ((W4_arr m ρ c 3).trans (Layer2.final (V3 m ρ) c)).trans (by
    show outer (V3 m ρ c main_v4_1 : Mat 10000 10000) (V3 m ρ c main_v4_0 : Mat 10000 300) (V3 m ρ c main_v1 : Mat 1 300) = _
    rw [late_a m ρ c, late_hidden m ρ c, late_b2 m ρ c]
    rfl)

/-- The kernel's run, read: every weakly fair execution terminates with the result array at the network's value of the
    arguments, the arguments unchanged. -/
theorem run : θ_run defs (onTc (τ := τ) (main (F := Ideal))) ⟨m, fun _ => 0, ρ⟩ (fun r => ∀ c : Dev nD,
      r.2.mem ((c.tc : Thread nD τ).loc main_v5) = gcn (argX m c) (argA m c) (argW1 m c) (row (argB1 m c)) (argW2 m c) (row (argB2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_last m ρ)

end Cert.KernelIdeal.Whole

end
-- ==== Proof.RefValue.lean ====
/-
  The reference's result as the same function of the argument arrays.

  The reference is a straight line of host operations: two products for the first layer, the bias spread over the
  rows (first to a single row, then to every row), the clamp at zero against a zero constant spread over the array,
  two products for the second layer and the second bias. Each stage is read at an index from the generated stage
  lemmas; a product's generated index functions are the row of the left operand and the column of the right one.
-/
import proofs.«165406_g10651518894447_week1_w2_746_12_alg».proof.Defs
import proofs.«165406_g10651518894447_week1_w2_746_12_alg».proof.Proof.Gen.ReferenceIdeal
import proofs.«165406_g10651518894447_week1_w2_746_12_alg».proof.Proof.Gen.ReferenceIdeal.Run
import proofs.«165406_g10651518894447_week1_w2_746_12_alg».proof.Proof.Gen.ReferenceIdeal.Read
import proofs.«165406_g10651518894447_week1_w2_746_12_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GcnSpec

/-- A sum over the contracted axis whose two index functions are the row `i 0` and the column `i 1` is the product's
    entry at `i`. -/
theorem sum_eq_mm {r k c : ℕ} (A : Mat r k) (B : Mat k c) (i : (⟨2, ![r, c]⟩ : Shape).Idx)
    (l : Fin k → (⟨2, ![r, k]⟩ : Shape).Idx) (rr : Fin k → (⟨2, ![k, c]⟩ : Shape).Idx)
    (hl : ∀ q, l q = ix2 (n0 := r) (i 0) q) (hr : ∀ q, rr q = ix2 (n1 := c) q (i 1)) :
    ∑ q : Fin k, A (l q) * B (rr q) = mm A B i :=
  Finset.sum_congr rfl fun q _ => by rw [hl q, hr q]

/-- `X · W₁`. -/
theorem support_eq (x0 : Mat 10000 300) (x2 : Mat 300 300) : val_main_v0 (F := Ideal) x0 x2 = mm x0 x2 :=
  funext fun i => (val_main_v0_apply x0 x2 i).trans (sum_eq_mm x0 x2 i _ _
    (fun q => funext fun a => match a with | ⟨0, _⟩ => rfl | ⟨1, _⟩ => rfl)
    (fun q => funext fun a => match a with | ⟨0, _⟩ => rfl | ⟨1, _⟩ => rfl))

/-- `A · (X · W₁)`. -/
theorem agg1_eq (x0 : Mat 10000 300) (x1 : Mat 10000 10000) (x2 : Mat 300 300) :
    val_main_v1 (F := Ideal) x0 x1 x2 = mm x1 (mm x0 x2) :=
  funext fun i => by
    rw [val_main_v1_apply, support_eq]
    exact sum_eq_mm x1 (mm x0 x2) i _ _
      (fun q => funext fun a => match a with | ⟨0, _⟩ => rfl | ⟨1, _⟩ => rfl)
      (fun q => funext fun a => match a with | ⟨0, _⟩ => rfl | ⟨1, _⟩ => rfl)

/-- The bias spread over every row, read at an index: the vector's entry at the column. -/
theorem bias1_apply (x3 : (⟨1, ![300]⟩ : Shape).Idx → EReal) (i : S10000x300.Idx) :
    val_main_v3 (F := Ideal) x3 i = row x3 (ix2 (n0 := 1) 0 (i 1)) := by
  rw [val_main_v3_apply, val_main_v2_apply]
  exact congrArg x3 (funext fun a => match a with | ⟨0, _⟩ => rfl)
theorem bias2_apply (x5 : (⟨1, ![300]⟩ : Shape).Idx → EReal) (i : S10000x300.Idx) :
    val_main_v9 (F := Ideal) x5 i = row x5 (ix2 (n0 := 1) 0 (i 1)) := by
  rw [val_main_v9_apply, val_main_v8_apply]
  exact congrArg x5 (funext fun a => match a with | ⟨0, _⟩ => rfl)

/-- The hidden rows: `max (A · (X · W₁) + b₁, 0)`. -/
theorem hiddenRows_eq (x0 : Mat 10000 300) (x1 : Mat 10000 10000) (x2 : Mat 300 300) (x3 : (⟨1, ![300]⟩ : Shape).Idx → EReal) :
    val_main_v5 (F := Ideal) x0 x1 x2 x3 = relu (addRow (mm x1 (mm x0 x2)) (row x3)) :=
  funext fun i => by
    rw [val_main_v5_apply, val_main_v4_apply, agg1_eq, bias1_apply, val_main_call0_v0_apply, val_main_call0_cst_apply]
    rfl

/-- The first layer's product with the second weight. -/
theorem hidden_eq (x0 : Mat 10000 300) (x1 : Mat 10000 10000) (x2 : Mat 300 300) (x3 : (⟨1, ![300]⟩ : Shape).Idx → EReal) (x4 : Mat 300 300) :
    val_main_v6 (F := Ideal) x0 x1 x2 x3 x4 = hidden x1 (mm x0 x2) (row x3) x4 :=
  funext fun i => by
    rw [val_main_v6_apply, hiddenRows_eq]
    exact sum_eq_mm (relu (addRow (mm x1 (mm x0 x2)) (row x3))) x4 i _ _
      (fun q => funext fun a => match a with | ⟨0, _⟩ => rfl | ⟨1, _⟩ => rfl)
      (fun q => funext fun a => match a with | ⟨0, _⟩ => rfl | ⟨1, _⟩ => rfl)

/-- THE REFERENCE'S RESULT: the network's value of its arguments. -/
theorem result_eq (x0 : Mat 10000 300) (x1 : Mat 10000 10000) (x2 : Mat 300 300) (x3 : (⟨1, ![300]⟩ : Shape).Idx → EReal)
    (x4 : Mat 300 300) (x5 : (⟨1, ![300]⟩ : Shape).Idx → EReal) :
    val_main_v10 (F := Ideal) x0 x1 x2 x3 x4 x5 = gcn x0 x1 x2 (row x3) x4 (row x5) :=
  funext fun i => by
    rw [val_main_v10_apply, bias2_apply]
    refine congrArg (· + row x5 (ix2 (n0 := 1) 0 (i 1))) ?_
    rw [val_main_v7_apply, hidden_eq]
    exact sum_eq_mm x1 (hidden x1 (mm x0 x2) (row x3) x4) i _ _
      (fun q => funext fun a => match a with | ⟨0, _⟩ => rfl | ⟨1, _⟩ => rfl)
      (fun q => funext fun a => match a with | ⟨0, _⟩ => rfl | ⟨1, _⟩ => rfl)

end Cert.ReferenceIdeal.RefValue

end
-- ==== Proof.lean ====
/-
  A two-layer dense graph convolution, `out = A · (max (A · (X · W₁) + b₁, 0) · W₂) + b₂`, computed by three launches
  against the same formula written with whole-array products.

  The kernel's first launch forms `X · W₁` a block of rows at a time; the second forms `max (A · S + b₁, 0) · W₂` a block of
  rows at a time and keeps a copy of `A` in a narrower float format; the third forms `A · T + b₂` from that copy. Every
  product contracts its whole inner axis in one step into a zero accumulator, so on the extended reals — where a change
  of float format is the identity — each launch's output is exactly the product the formula names, and the three compose
  to the reference's chain of whole-array products in the same grouping. No rearrangement of sums is involved, so the
  inputs' finiteness is never used.

  The two word-level and ideal frames of the kernel are the generated ones; the reference's frame is its generated run
  with the result dropped; the ideal pass rewrote nothing, so there is nothing to preserve.
-/
import proofs.«165406_g10651518894447_week1_w2_746_12_alg».proof.Defs
import proofs.«165406_g10651518894447_week1_w2_746_12_alg».proof.Proof.Gen.Kernel
import proofs.«165406_g10651518894447_week1_w2_746_12_alg».proof.Proof.Gen.Kernel.Skeleton
import proofs.«165406_g10651518894447_week1_w2_746_12_alg».proof.Proof.Gen.Kernel.Launch
import proofs.«165406_g10651518894447_week1_w2_746_12_alg».proof.Proof.Gen.Kernel.Points
import proofs.«165406_g10651518894447_week1_w2_746_12_alg».proof.Proof.Gen.Kernel.Frame
import proofs.«165406_g10651518894447_week1_w2_746_12_alg».proof.Proof.Gen.KernelIdeal
import proofs.«165406_g10651518894447_week1_w2_746_12_alg».proof.Proof.Gen.KernelIdeal.Skeleton
import proofs.«165406_g10651518894447_week1_w2_746_12_alg».proof.Proof.Gen.KernelIdeal.Launch
import proofs.«165406_g10651518894447_week1_w2_746_12_alg».proof.Proof.Gen.KernelIdeal.Points
import proofs.«165406_g10651518894447_week1_w2_746_12_alg».proof.Proof.Gen.KernelIdeal.Frame
import proofs.«165406_g10651518894447_week1_w2_746_12_alg».proof.Proof.Gen.ReferenceIdeal
import proofs.«165406_g10651518894447_week1_w2_746_12_alg».proof.Proof.Gen.ReferenceIdeal.Run
import proofs.«165406_g10651518894447_week1_w2_746_12_alg».proof.Proof.Gen.ReferenceIdeal.Read
import proofs.«165406_g10651518894447_week1_w2_746_12_alg».proof.Proof.Gen.Pre_finite_inputs
import proofs.«165406_g10651518894447_week1_w2_746_12_alg».proof.Proof.KernelValue
import proofs.«165406_g10651518894447_week1_w2_746_12_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, the kernel's result array and the reference's both end at the
    network's value of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact (Cert.ReferenceIdeal.Read.val_main_v10_eq (F := Ideal) _ _ _ _ _ _).trans
    (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
